-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S2000x128 : Shape := ⟨2, ![2000, 128]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 55
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S_, .f32⟩
  | .hbm, ⟨50, _⟩ => ⟨S50000x128, .f32⟩
  | .hbm, ⟨51, _⟩ => ⟨S600000x1, .i32⟩
  | .hbm, ⟨52, _⟩ => ⟨S50000x128, .f32⟩
  | .hbm, ⟨53, _⟩ => ⟨S1x64, .f32⟩
  | .hbm, ⟨54, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x64, .f32⟩
  | .local _ .vmem, ⟨18, _⟩ => ⟨S1x64, .f32⟩
  | .local _ .vmem, ⟨19, _⟩ => ⟨S128x64, .f32⟩
  | .local _ .vmem, ⟨20, _⟩ => ⟨S2000x64, .f32⟩
  | .local _ .vmem, ⟨21, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S50000, .f32⟩
  | .hbm, ⟨63, _⟩ => ⟨S600000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibSageLayer.lean ====
import Idealize.ShloMosaic.PureOps.Ideal.Laws
import Idealize.ShloMosaic.Lib.ValueIdx

/-!
# One mean-aggregating graph layer over the extended reals, read at one entry

A layer of a mean-aggregating graph network sends node `r` to
`(A r / d r) · Wₗ + b + X r · Wᵣ`: `A r` the sum of the neighbours' rows, `d r ≥ 1` the node's degree clamped below by one,
`X r` the node's own row. A kernel may instead scale the aggregated row by the reciprocal `1 / d r`, computed once per node
and kept as a column, and add the bias last. Over the extended reals the quotient by a non-zero `d` IS the product with
`d⁻¹` — also when `d` is infinite, where both are the product with zero — so the two forms agree entry by entry with no
finiteness assumption on the rows; the three summands only change places, and addition of extended reals is commutative
and associative.
-/

noncomputable section

namespace Idealize.ShloMosaic.SageLayer

open Idealize.ShloMosaic Idealize.ShloMosaic.ValueIdx

/-- Scaling by the reciprocal of a non-zero extended real is dividing by it. -/
theorem mul_div_one (a d : EReal) (hd : d ≠ 0) : a * Ideal.div 1 d = Ideal.div a d := by
  unfold Ideal.div
  rw [if_neg hd, if_neg hd, one_mul]

/-- A degree clamped below by one is not zero. -/
theorem max_one_ne_zero (x : EReal) : max x 1 ≠ 0 :=
  ne_of_gt (lt_of_lt_of_le zero_lt_one (le_max_right x 1))

/-- A vector clamped below, entry by entry, by a vector that is one at `i` is not zero at `i`. -/
theorem maximumf_ne_zero_of_one {s : Shape} (a b : FVec Ideal s .f32) (i : s.Idx) (hb : b i = 1) : maximumf a b i ≠ 0 := by
  rw [maximumf_apply, hb]
  exact max_one_ne_zero _

/-- The host's quotient of a vector that is one at `i` by `b` is, at `i`, one over `b i`. -/
theorem hostDivf_one_apply {s : Shape} (a b : FVec Ideal s .f32) (i : s.Idx) (ha : a i = 1) :
    Host.divf a b i = Ideal.div 1 (b i) := by
  show Ideal.div (a i) (b i) = _
  rw [ha]

/-- The float word `0x3F800000` is the number one. -/
theorem ofBits_one_f32 : Ideal.ofBits .f32 0x3F800000#32 = 1 := by
  simp [Ideal.ofBits, Ideal.ieee, -EReal.coe_mul]; norm_num

/-- Entry `(r, q)` of a layer as a kernel forms it: the aggregated row scaled by the node's reciprocal degree (a column)
    against the neighbour weights, plus the node's own row against the root weights, plus the bias (a row). -/
def scaledAt {n K N : Nat} (agg : (⟨2, ![n, K]⟩ : Shape).Idx → EReal) (inv : (⟨2, ![n, 1]⟩ : Shape).Idx → EReal)
    (root : (⟨2, ![n, K]⟩ : Shape).Idx → EReal) (wl : (⟨2, ![K, N]⟩ : Shape).Idx → EReal)
    (b : (⟨2, ![1, N]⟩ : Shape).Idx → EReal) (wr : (⟨2, ![K, N]⟩ : Shape).Idx → EReal) (r : Fin n) (q : Fin N) : EReal :=
  (∑ k : Fin K, (agg (ix2 r k) * inv (ix2 r (0 : Fin 1))) * wl (ix2 k q)) + (∑ k : Fin K, root (ix2 r k) * wr (ix2 k q))
    + b (ix2 (0 : Fin 1) q)

/-- An entry of the layer reads one row of the node arrays, one column of the weights and one bias entry: two families of
    arrays (of any numbers of rows) that agree there give the same entry. -/
theorem scaledAt_congr {n n' K N : Nat} (agg : (⟨2, ![n, K]⟩ : Shape).Idx → EReal) (inv : (⟨2, ![n, 1]⟩ : Shape).Idx → EReal)
    (root : (⟨2, ![n, K]⟩ : Shape).Idx → EReal) (wl : (⟨2, ![K, N]⟩ : Shape).Idx → EReal)
    (b : (⟨2, ![1, N]⟩ : Shape).Idx → EReal) (wr : (⟨2, ![K, N]⟩ : Shape).Idx → EReal)
    (agg' : (⟨2, ![n', K]⟩ : Shape).Idx → EReal) (inv' : (⟨2, ![n', 1]⟩ : Shape).Idx → EReal)
    (root' : (⟨2, ![n', K]⟩ : Shape).Idx → EReal) (wl' : (⟨2, ![K, N]⟩ : Shape).Idx → EReal)
    (b' : (⟨2, ![1, N]⟩ : Shape).Idx → EReal) (wr' : (⟨2, ![K, N]⟩ : Shape).Idx → EReal)
    (r : Fin n) (r' : Fin n') (q : Fin N)
    (hagg : ∀ k : Fin K, agg (ix2 r k) = agg' (ix2 r' k)) (hinv : inv (ix2 r (0 : Fin 1)) = inv' (ix2 r' (0 : Fin 1)))
    (hroot : ∀ k : Fin K, root (ix2 r k) = root' (ix2 r' k)) (hwl : ∀ k : Fin K, wl (ix2 k q) = wl' (ix2 k q))
    (hb : b (ix2 (0 : Fin 1) q) = b' (ix2 (0 : Fin 1) q)) (hwr : ∀ k : Fin K, wr (ix2 k q) = wr' (ix2 k q)) :
    scaledAt agg inv root wl b wr r q = scaledAt agg' inv' root' wl' b' wr' r' q := by
  unfold scaledAt
  rw [hinv, hb]
  refine congrArg (· + _) (congrArg₂ (· + ·) (Finset.sum_congr rfl fun k _ => ?_) (Finset.sum_congr rfl fun k _ => ?_))
  · rw [hagg k, hwl k]
  · rw [hroot k, hwr k]

/-- Entry `(r, q)` of a layer as the textbook writes it: the aggregated row divided by the clamped degree against the
    neighbour weights, plus the bias, plus the node's own row against the root weights. -/
def meanAt {n K N : Nat} (agg : (⟨2, ![n, K]⟩ : Shape).Idx → EReal) (d : (⟨1, ![n]⟩ : Shape).Idx → EReal)
    (root : (⟨2, ![n, K]⟩ : Shape).Idx → EReal) (wl : (⟨2, ![K, N]⟩ : Shape).Idx → EReal)
    (b : (⟨1, ![N]⟩ : Shape).Idx → EReal) (wr : (⟨2, ![K, N]⟩ : Shape).Idx → EReal) (r : Fin n) (q : Fin N) : EReal :=
  (∑ k : Fin K, Ideal.div (agg (ix2 r k)) (d (ix1 r)) * wl (ix2 k q)) + b (ix1 q) + ∑ k : Fin K, root (ix2 r k) * wr (ix2 k q)

/-- The two forms agree at `(r, q)` when the column holds the reciprocal of a non-zero degree at `r` and the bias row holds
    the bias vector at `q`. -/
theorem scaledAt_eq_meanAt {n K N : Nat} (agg : (⟨2, ![n, K]⟩ : Shape).Idx → EReal)
    (inv : (⟨2, ![n, 1]⟩ : Shape).Idx → EReal) (d : (⟨1, ![n]⟩ : Shape).Idx → EReal)
    (root : (⟨2, ![n, K]⟩ : Shape).Idx → EReal) (wl : (⟨2, ![K, N]⟩ : Shape).Idx → EReal)
    (b' : (⟨2, ![1, N]⟩ : Shape).Idx → EReal) (b : (⟨1, ![N]⟩ : Shape).Idx → EReal)
    (wr : (⟨2, ![K, N]⟩ : Shape).Idx → EReal) (r : Fin n) (q : Fin N)
    (hinv : inv (ix2 r (0 : Fin 1)) = Ideal.div 1 (d (ix1 r))) (hd : d (ix1 r) ≠ 0)
    (hb : b' (ix2 (0 : Fin 1) q) = b (ix1 q)) :
    scaledAt agg inv root wl b' wr r q = meanAt agg d root wl b wr r q := by
  unfold scaledAt meanAt
  rw [hinv, hb, add_right_comm]
  refine congrArg (· + _) (congrArg (· + _) (Finset.sum_congr rfl fun k _ => ?_))
  rw [mul_div_one _ _ hd]

end Idealize.ShloMosaic.SageLayer

end
-- ==== Proof.Layer0.lean ====
import proofs.«105003_j42812234006861_1_alg».proof.Proof.Gen.KernelIdeal.Frame
import proofs.«105003_j42812234006861_1_alg».proof.Proof.LibPlainMatmul
import proofs.«105003_j42812234006861_1_alg».proof.Proof.LibKeepdims
import proofs.«105003_j42812234006861_1_alg».proof.Proof.LibSageLayer
import Idealize.ShloMosaic.Lib.Pipeline.Value
import Idealize.ShloMosaic.Lib.ValueLayout

/-!
# The first layer's region: what its output array holds

The region tiles the 50000 nodes into 25 blocks of 2000 rows. At block `t` the body forms, for each of the block's rows
`p` and each of the 128 output features `q`,
`max (Σₖ (agg (p, k) · inv (p, 0)) · Wₗ (k, q) + Σₖ x (p, k) · Wᵣ (k, q) + b (0, q)) 0`,
from rows `2000 t + p` of the three node arrays and from the weights and bias, which every block sees whole. So the output
array ends holding that one function of the six input arrays at every node and feature.
-/

set_option maxRecDepth 16384

noncomputable section

namespace Cert.KernelIdeal.Layer0

open Cert.KernelIdeal Cert.KernelIdeal.Gen
open Idealize.ShloMosaic Idealize.ShloMosaic.TcCoe Idealize.SL.Sem Idealize.ShloMosaic.ValueIdx Idealize.ShloMosaic.SageLayer
open Idealize.ShloMosaic.Pipeline (Dat Cfg Window)

/-- The body's matrix products contract the left operand's columns with the right operand's rows. -/
theorem dims_eq : dot_S2000x128_S128x128_S2000x128_1_0_0_1_n_n = DotDims.plain 2000 128 128 := rfl

/-- The value the body stores, at row `p` and feature `q` of the block: the rectified layer entry of the loaded blocks
    (the roundings to the narrower float format are identities over the extended reals). -/
theorem pay_apply (v0 : FVec Ideal S2000x128 .f32) (v2 : FVec Ideal S2000x1 .f32) (v7 : FVec Ideal S2000x128 .f32)
    (v9 v11 : FVec Ideal S128x128 .f32) (v16 : FVec Ideal S1x128 .f32) (p : Fin 2000) (q : Fin 128) :
    k0_pay1 (F := Ideal) v0 v2 v7 v9 v11 v16 (ix2 p q) = max (scaledAt v0 v2 v7 v9 v16 v11 p q) 0 := by
  unfold k0_pay1 scaledAt
  simp only [shapeCast_self, dims_eq, matmul]
  rw [maximumf_apply, addf_apply, addf_apply, broadcast_apply,
    PlainMatmul.matmul_plain_zero_apply, PlainMatmul.matmul_plain_zero_apply, broadcastTo_1b_ab_apply]
  simp only [truncf_apply, mulf_apply, Keepdims.broadcastTo_a1_ab_apply]
  exact congrArg _ Ideal.ofBits_zero_f32

/-- The layer on whole arrays: the rectified entry at every node and feature. -/
def layer (agg : FVec Ideal S50000x128 .f32) (inv : FVec Ideal S50000x1 .f32) (root : FVec Ideal S50000x128 .f32)
    (wl : FVec Ideal S128x128 .f32) (b : FVec Ideal S1x128 .f32) (wr : FVec Ideal S128x128 .f32) :
    FVec Ideal S50000x128 .f32 :=
  fun j => max (scaledAt agg inv root wl b wr (j 0) (j 1)) 0

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the three node windows and the output window are at block row `t`,
    block column 0; the weights and the bias stay at block (0, 0). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p`, feature `q` of block `t`, as an index of the output array. -/
abbrev at6 (t : Fin cfg0.N) (p : Fin 2000) (q : Fin 128) : S50000x128.Idx := ((cfg0.win 6).blk t).view.emb (ix2 p q)

theorem at6_1 (t : Fin cfg0.N) (p : Fin 2000) (q : Fin 128) : at6 t p q 1 = q := by
  apply Fin.ext
  obtain ⟨-, -, -, -, -, -, -, -, -, -, -, -, -, e⟩ := idx_facts t
  show win0_6.index t (1 : Fin 2) * 128 + 1 * q.val = q.val
  omega

/-- Block `t` of the aggregated rows, at `(p, k)`: the array at the block's node row. -/
theorem blk_agg (c : Dev nD) (t : Fin cfg0.N) (p : Fin 2000) (q k : Fin 128) :
    iblk0 V c 0 t (ix2 p k) = V c (Pipeline.arrRef spec0 0) (ix2 (at6 t p q 0) k) := by
  show V c (Pipeline.arrRef spec0 0) (((cfg0.win 0).blk t).view.emb (ix2 p k)) = _
  refine congrArg _ (funext fun a => Fin.ext ?_)
  obtain ⟨e0, e1, -⟩ := idx_facts t
  match a with
  | ⟨0, _⟩ => show win0_0.index t (0 : Fin 2) * 2000 + 1 * p.val = win0_6.index t (0 : Fin 2) * 2000 + 1 * p.val; omega
  | ⟨1, _⟩ => show win0_0.index t (1 : Fin 2) * 128 + 1 * k.val = k.val; omega

/-- Block `t` of the reciprocal-degree column, at `(p, 0)`. -/
theorem blk_inv (c : Dev nD) (t : Fin cfg0.N) (p : Fin 2000) (q : Fin 128) :
    iblk0 V c 1 t (ix2 p (0 : Fin 1)) = V c (Pipeline.arrRef spec0 1) (ix2 (at6 t p q 0) (0 : Fin 1)) := by
  show V c (Pipeline.arrRef spec0 1) (((cfg0.win 1).blk t).view.emb (ix2 p (0 : Fin 1))) = _
  refine congrArg _ (funext fun a => Fin.ext ?_)
  obtain ⟨-, -, e0, e1, -⟩ := idx_facts t
  match a with
  | ⟨0, _⟩ => show win0_1.index t (0 : Fin 2) * 2000 + 1 * p.val = win0_6.index t (0 : Fin 2) * 2000 + 1 * p.val; omega
  | ⟨1, _⟩ => show win0_1.index t (1 : Fin 2) * 1 + 1 * 0 = 0; omega

/-- Block `t` of the nodes' own rows, at `(p, k)`. -/
theorem blk_root (c : Dev nD) (t : Fin cfg0.N) (p : Fin 2000) (q k : Fin 128) :
    iblk0 V c 2 t (ix2 p k) = V c (Pipeline.arrRef spec0 2) (ix2 (at6 t p q 0) k) := by
  show V c (Pipeline.arrRef spec0 2) (((cfg0.win 2).blk t).view.emb (ix2 p k)) = _
  refine congrArg _ (funext fun a => Fin.ext ?_)
  obtain ⟨-, -, -, -, e0, e1, -⟩ := idx_facts t
  match a with
  | ⟨0, _⟩ => show win0_2.index t (0 : Fin 2) * 2000 + 1 * p.val = win0_6.index t (0 : Fin 2) * 2000 + 1 * p.val; omega
  | ⟨1, _⟩ => show win0_2.index t (1 : Fin 2) * 128 + 1 * k.val = k.val; omega

/-- Every block sees the neighbour weights whole. -/
theorem blk_wl (c : Dev nD) (t : Fin cfg0.N) (k q : Fin 128) :
    iblk0 V c 3 t (ix2 k q) = V c (Pipeline.arrRef spec0 3) (ix2 k q) := by
  show V c (Pipeline.arrRef spec0 3) (((cfg0.win 3).blk t).view.emb (ix2 k q)) = _
  refine congrArg _ (funext fun a => Fin.ext ?_)
  obtain ⟨-, -, -, -, -, -, e0, e1, -⟩ := idx_facts t
  match a with
  | ⟨0, _⟩ => show win0_3.index t (0 : Fin 2) * 128 + 1 * k.val = k.val; omega
  | ⟨1, _⟩ => show win0_3.index t (1 : Fin 2) * 128 + 1 * q.val = q.val; omega

/-- Every block sees the bias row whole. -/
theorem blk_b (c : Dev nD) (t : Fin cfg0.N) (q : Fin 128) :
    iblk0 V c 4 t (ix2 (0 : Fin 1) q) = V c (Pipeline.arrRef spec0 4) (ix2 (0 : Fin 1) q) := by
  show V c (Pipeline.arrRef spec0 4) (((cfg0.win 4).blk t).view.emb (ix2 (0 : Fin 1) q)) = _
  refine congrArg _ (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 128 + 1 * q.val = q.val; omega

/-- Every block sees the root weights whole. -/
theorem blk_wr (c : Dev nD) (t : Fin cfg0.N) (k q : Fin 128) :
    iblk0 V c 5 t (ix2 k q) = V c (Pipeline.arrRef spec0 5) (ix2 k q) := by
  show V c (Pipeline.arrRef spec0 5) (((cfg0.win 5).blk t).view.emb (ix2 k q)) = _
  refine congrArg _ (funext fun a => Fin.ext ?_)
  obtain ⟨-, -, -, -, -, -, -, -, -, -, e0, e1, -⟩ := idx_facts t
  match a with
  | ⟨0, _⟩ => show win0_5.index t (0 : Fin 2) * 128 + 1 * k.val = k.val; omega
  | ⟨1, _⟩ => show win0_5.index t (1 : Fin 2) * 128 + 1 * q.val = q.val; omega

/-- What point `t` writes back is block `t` of the layer of the six input arrays as the region finds them. -/
theorem flushed_eq (c : Dev nD) (t : Fin cfg0.N) :
    (dat0 V c).flushed 6 t = ((cfg0.win 6).blk t).view.read (Elt Ideal)
      (layer (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz,
    View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (iblk0 V c 3 t) (iblk0 V c 5 t) (iblk0 V c 4 t) (ix2 p q)
    = max (scaledAt (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (at6 t p q 0) (at6 t p q 1)) 0
  refine (pay_apply (iblk0 V c 0 t) (iblk0 V c 1 t) (iblk0 V c 2 t) (iblk0 V c 3 t) (iblk0 V c 5 t) (iblk0 V c 4 t) p q).trans ?_
  rw [at6_1 t p q]
  exact congrArg (max · 0) (scaledAt_congr (iblk0 V c 0 t) (iblk0 V c 1 t) (iblk0 V c 2 t) (iblk0 V c 3 t) (iblk0 V c 4 t) (iblk0 V c 5 t)
    (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) p (at6 t p q 0) q
    (fun k => blk_agg V c t p q k) (blk_inv V c t p q) (fun k => blk_root V c t p q k) (fun k => blk_wl V c t k q)
    (blk_b V c t q) (fun k => blk_wr V c t k q))

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v24).slice (win0_6.rect t)).set ↔ _
  rw [View.set_slice_whole, Rect.mem_set_unit]
  exact Iff.rfl

/-- Every block row of the output is some point's. -/
theorem idx_onto : ∀ (q0 : Fin 25), ∃ t : Fin cfg0.N, win0_6.index t = ![q0.val, 0] :=
  (by decide +kernel : ∀ (q0 : Fin 25), ∃ t : Fin grid0.N, win0_6.index t = ![q0.val, 0])

/-- The blocks cover the output array: node `r` is in block `r / 2000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The output array after the region: the layer of the six input arrays as the region finds them. -/
theorem final (c : Dev nD) : (dat0 V c).arrAt 6 cfg0.N
    = layer (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (dat0 V c).arrAt_eq_of_cover 6 _ (fun t _ => flushed_eq V c t) cover

end Cert.KernelIdeal.Layer0

end
-- ==== Proof.Layer1.lean ====
import proofs.«105003_j42812234006861_1_alg».proof.Proof.Gen.KernelIdeal.Frame
import proofs.«105003_j42812234006861_1_alg».proof.Proof.LibPlainMatmul
import proofs.«105003_j42812234006861_1_alg».proof.Proof.LibKeepdims
import proofs.«105003_j42812234006861_1_alg».proof.Proof.LibSageLayer
import Idealize.ShloMosaic.Lib.Pipeline.Value
import Idealize.ShloMosaic.Lib.ValueLayout

/-!
# The second layer's region: what its output array holds

The same tiling as the first layer's region, 25 blocks of 2000 nodes, now with 128 input and 64 output features and no
rectification: at block `t`, row `p`, feature `q` the body forms
`Σₖ (agg (p, k) · inv (p, 0)) · Wₗ (k, q) + Σₖ h (p, k) · Wᵣ (k, q) + b (0, q)`
from rows `2000 t + p` of the node arrays. The output array ends holding that function of the six input arrays.
-/

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx Idealize.ShloMosaic.SageLayer
open Idealize.ShloMosaic.Pipeline (Dat Cfg Window)

/-- The body's matrix products contract the left operand's 128 columns with the right operand's 128 rows. -/
theorem dims_eq : dot_S2000x128_S128x64_S2000x64_1_0_0_1_n_n = DotDims.plain 2000 128 64 := rfl

/-- The value the body stores, at row `p` and feature `q` of the block: the layer entry of the loaded blocks. -/
theorem pay_apply (v0 : FVec Ideal S2000x128 .f32) (v2 : FVec Ideal S2000x1 .f32) (v7 : FVec Ideal S2000x128 .f32)
    (v10 v12 : FVec Ideal S128x64 .f32) (v17 : FVec Ideal S1x64 .f32) (p : Fin 2000) (q : Fin 64) :
    k1_pay1 (F := Ideal) v0 v2 v7 v10 v12 v17 (ix2 p q) = scaledAt v0 v2 v7 v10 v17 v12 p q := by
  unfold k1_pay1 scaledAt
  simp only [shapeCast_self, dims_eq, matmul]
  rw [addf_apply, addf_apply,
    PlainMatmul.matmul_plain_zero_apply, PlainMatmul.matmul_plain_zero_apply, broadcastTo_1b_ab_apply]
  simp only [truncf_apply, mulf_apply, Keepdims.broadcastTo_a1_ab_apply]

/-- The layer on whole arrays: the entry at every node and feature. -/
def layer (agg : FVec Ideal S50000x128 .f32) (inv : FVec Ideal S50000x1 .f32) (root : FVec Ideal S50000x128 .f32)
    (wl : FVec Ideal S128x64 .f32) (b : FVec Ideal S1x64 .f32) (wr : FVec Ideal S128x64 .f32) :
    FVec Ideal S50000x64 .f32 :=
  fun j => scaledAt agg inv root wl b wr (j 0) (j 1)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the three node windows and the output window are at block row `t`,
    block column 0; the weights and the bias stay at block (0, 0). -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p`, feature `q` of block `t`, as an index of the output array. -/
abbrev at6 (t : Fin cfg1.N) (p : Fin 2000) (q : Fin 64) : S50000x64.Idx := ((cfg1.win 6).blk t).view.emb (ix2 p q)

theorem at6_1 (t : Fin cfg1.N) (p : Fin 2000) (q : Fin 64) : at6 t p q 1 = q := by
  apply Fin.ext
  obtain ⟨-, -, -, -, -, -, -, -, -, -, -, -, -, e⟩ := idx_facts t
  show win1_6.index t (1 : Fin 2) * 64 + 1 * q.val = q.val
  omega

/-- Block `t` of the aggregated rows, at `(p, k)`: the array at the block's node row. -/
theorem blk_agg (c : Dev nD) (t : Fin cfg1.N) (p : Fin 2000) (q : Fin 64) (k : Fin 128) :
    iblk1 V c 0 t (ix2 p k) = V c (Pipeline.arrRef spec1 0) (ix2 (at6 t p q 0) k) := by
  show V c (Pipeline.arrRef spec1 0) (((cfg1.win 0).blk t).view.emb (ix2 p k)) = _
  refine congrArg _ (funext fun a => Fin.ext ?_)
  obtain ⟨e0, e1, -⟩ := idx_facts t
  match a with
  | ⟨0, _⟩ => show win1_0.index t (0 : Fin 2) * 2000 + 1 * p.val = win1_6.index t (0 : Fin 2) * 2000 + 1 * p.val; omega
  | ⟨1, _⟩ => show win1_0.index t (1 : Fin 2) * 128 + 1 * k.val = k.val; omega

/-- Block `t` of the reciprocal-degree column, at `(p, 0)`. -/
theorem blk_inv (c : Dev nD) (t : Fin cfg1.N) (p : Fin 2000) (q : Fin 64) :
    iblk1 V c 1 t (ix2 p (0 : Fin 1)) = V c (Pipeline.arrRef spec1 1) (ix2 (at6 t p q 0) (0 : Fin 1)) := by
  show V c (Pipeline.arrRef spec1 1) (((cfg1.win 1).blk t).view.emb (ix2 p (0 : Fin 1))) = _
  refine congrArg _ (funext fun a => Fin.ext ?_)
  obtain ⟨-, -, e0, e1, -⟩ := idx_facts t
  match a with
  | ⟨0, _⟩ => show win1_1.index t (0 : Fin 2) * 2000 + 1 * p.val = win1_6.index t (0 : Fin 2) * 2000 + 1 * p.val; omega
  | ⟨1, _⟩ => show win1_1.index t (1 : Fin 2) * 1 + 1 * 0 = 0; omega

/-- Block `t` of the first layer's rows, at `(p, k)`. -/
theorem blk_root (c : Dev nD) (t : Fin cfg1.N) (p : Fin 2000) (q : Fin 64) (k : Fin 128) :
    iblk1 V c 2 t (ix2 p k) = V c (Pipeline.arrRef spec1 2) (ix2 (at6 t p q 0) k) := by
  show V c (Pipeline.arrRef spec1 2) (((cfg1.win 2).blk t).view.emb (ix2 p k)) = _
  refine congrArg _ (funext fun a => Fin.ext ?_)
  obtain ⟨-, -, -, -, e0, e1, -⟩ := idx_facts t
  match a with
  | ⟨0, _⟩ => show win1_2.index t (0 : Fin 2) * 2000 + 1 * p.val = win1_6.index t (0 : Fin 2) * 2000 + 1 * p.val; omega
  | ⟨1, _⟩ => show win1_2.index t (1 : Fin 2) * 128 + 1 * k.val = k.val; omega

/-- Every block sees the neighbour weights whole. -/
theorem blk_wl (c : Dev nD) (t : Fin cfg1.N) (k : Fin 128) (q : Fin 64) :
    iblk1 V c 3 t (ix2 k q) = V c (Pipeline.arrRef spec1 3) (ix2 k q) := by
  show V c (Pipeline.arrRef spec1 3) (((cfg1.win 3).blk t).view.emb (ix2 k q)) = _
  refine congrArg _ (funext fun a => Fin.ext ?_)
  obtain ⟨-, -, -, -, -, -, e0, e1, -⟩ := idx_facts t
  match a with
  | ⟨0, _⟩ => show win1_3.index t (0 : Fin 2) * 128 + 1 * k.val = k.val; omega
  | ⟨1, _⟩ => show win1_3.index t (1 : Fin 2) * 64 + 1 * q.val = q.val; omega

/-- Every block sees the bias row whole. -/
theorem blk_b (c : Dev nD) (t : Fin cfg1.N) (q : Fin 64) :
    iblk1 V c 4 t (ix2 (0 : Fin 1) q) = V c (Pipeline.arrRef spec1 4) (ix2 (0 : Fin 1) q) := by
  show V c (Pipeline.arrRef spec1 4) (((cfg1.win 4).blk t).view.emb (ix2 (0 : Fin 1) q)) = _
  refine congrArg _ (funext fun a => Fin.ext ?_)
  obtain ⟨-, -, -, -, -, -, -, -, e0, e1, -⟩ := idx_facts t
  match a with
  | ⟨0, _⟩ => show win1_4.index t (0 : Fin 2) * 1 + 1 * 0 = 0; omega
  | ⟨1, _⟩ => show win1_4.index t (1 : Fin 2) * 64 + 1 * q.val = q.val; omega

/-- Every block sees the root weights whole. -/
theorem blk_wr (c : Dev nD) (t : Fin cfg1.N) (k : Fin 128) (q : Fin 64) :
    iblk1 V c 5 t (ix2 k q) = V c (Pipeline.arrRef spec1 5) (ix2 k q) := by
  show V c (Pipeline.arrRef spec1 5) (((cfg1.win 5).blk t).view.emb (ix2 k q)) = _
  refine congrArg _ (funext fun a => Fin.ext ?_)
  obtain ⟨-, -, -, -, -, -, -, -, -, -, e0, e1, -⟩ := idx_facts t
  match a with
  | ⟨0, _⟩ => show win1_5.index t (0 : Fin 2) * 128 + 1 * k.val = k.val; omega
  | ⟨1, _⟩ => show win1_5.index t (1 : Fin 2) * 64 + 1 * q.val = q.val; omega

/-- What point `t` writes back is block `t` of the layer of the six input arrays as the region finds them. -/
theorem flushed_eq (c : Dev nD) (t : Fin cfg1.N) :
    (dat1 V c).flushed 6 t = ((cfg1.win 6).blk t).view.read (Elt Ideal)
      (layer (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz,
    View.ld_unit_zero (S := S128x64) hz, View.ld_unit_zero (S := S1x64) hz]
  funext j
  obtain ⟨p, q, rfl⟩ : ∃ (p : Fin 2000) (q : Fin 64), j = ix2 p q := ⟨j 0, j 1, eq_ix2 j⟩
  show k1_pay1 (F := Ideal) (iblk1 V c 0 t) (iblk1 V c 1 t) (iblk1 V c 2 t) (iblk1 V c 3 t) (iblk1 V c 5 t) (iblk1 V c 4 t) (ix2 p q)
    = scaledAt (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (at6 t p q 0) (at6 t p q 1)
  refine (pay_apply (iblk1 V c 0 t) (iblk1 V c 1 t) (iblk1 V c 2 t) (iblk1 V c 3 t) (iblk1 V c 5 t) (iblk1 V c 4 t) p q).trans ?_
  rw [at6_1 t p q]
  exact scaledAt_congr (iblk1 V c 0 t) (iblk1 V c 1 t) (iblk1 V c 2 t) (iblk1 V c 3 t) (iblk1 V c 4 t) (iblk1 V c 5 t)
    (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) p (at6 t p q 0) q
    (fun k => blk_agg V c t p q k) (blk_inv V c t p q) (fun k => blk_root V c t p q k) (fun k => blk_wl V c t k q)
    (blk_b V c t q) (fun k => blk_wr V c t k q)

/-- An index of the output array is in point `t`'s block iff each coordinate is in the block's range on its axis. -/
theorem mem_blk (t : Fin cfg1.N) (i : S50000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v36).slice (win1_6.rect t)).set ↔ _
  rw [View.set_slice_whole, Rect.mem_set_unit]
  exact Iff.rfl

/-- Every block row of the output is some point's. -/
theorem idx_onto : ∀ (q0 : Fin 25), ∃ t : Fin cfg1.N, win1_6.index t = ![q0.val, 0] :=
  (by decide +kernel : ∀ (q0 : Fin 25), ∃ t : Fin grid1.N, win1_6.index t = ![q0.val, 0])

/-- The blocks cover the output array: node `r` is in block `r / 2000`. -/
theorem cover (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- The output array after the region: the layer of the six input arrays as the region finds them. -/
theorem final (c : Dev nD) : (dat1 V c).arrAt 6 cfg1.N
    = layer (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) :=
  (dat1 V c).arrAt_eq_of_cover 6 _ (fun t _ => flushed_eq V c t) cover

end Cert.KernelIdeal.Layer1

end
-- ==== Proof.HostChase.lean ====
import proofs.«105003_j42812234006861_1_alg».proof.Proof.Gen.KernelIdeal.Frame
import proofs.«105003_j42812234006861_1_alg».proof.Proof.Layer0
import proofs.«105003_j42812234006861_1_alg».proof.Proof.Layer1
import Idealize.ShloMosaic.Lib.StableHlo.Run
import Idealize.ShloMosaic.PureOps.Ideal

/-!
# The kernel program's result as one function of its eight arguments

Around its two regions the program runs on the host: from the edge list it takes the source and destination node of every
edge; it counts each node's incoming edges, clamps the count below by one and keeps the reciprocal as a column; for a node
array `h` it gathers the source rows and adds each into its destination row (the neighbour sum `agg h`). The first region
receives `agg x`, the reciprocal column, `x`, the first layer's weights and its bias as a row; the second receives `agg h₁`
of the first region's output `h₁`, the same column, `h₁`, and the second layer's weights and bias row. Reading the buffers
back boundary by boundary gives the result array as the second layer of the first.
-/

set_option maxRecDepth 16384

noncomputable section

namespace Cert.KernelIdeal.Chase

open Cert.KernelIdeal Cert.KernelIdeal.Gen
open Idealize.ShloMosaic Idealize.ShloMosaic.TcCoe Idealize.SL.Sem Idealize.ShloMosaic.StableHlo

/-- The edges' source nodes: row 0 of the edge list. -/
def src (ei : IVec S2x600000 32) : IVec S600000 32 :=
  shapeCast S600000 (extractStridedSlice S1x600000 ![0, 0] ei slices_S2x600000_S1x600000_0_0) shapeCasts_S1x600000_S600000

/-- The edges' destination nodes: row 1 of the edge list. -/
def dst (ei : IVec S2x600000 32) : IVec S600000 32 :=
  shapeCast S600000 (extractStridedSlice S1x600000 ![1, 0] ei slices_S2x600000_S1x600000_1_0) shapeCasts_S1x600000_S600000

/-- The neighbour sum of a node array: every edge's source row (a negative source counted from the end) gathered and
    added into the edge's destination row, from zero. -/
def aggOf (h : FVec Ideal S50000x128 .f32) (s d : IVec S600000 32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 d)
    (Host.gather gather_S50000x128_S600000x1_S600000x128_1_0_n_n_0_1_1128 h
      (broadcastInDim S600000x1 ![0] bcast_S600000_S600000x1_0
        (select (cmpi .slt s (broadcastInDim S600000 ![] bcast_S_S600000 (constantI S_ 32 0#32)))
          (addi s (broadcastInDim S600000 ![] bcast_S_S600000 (constantI S_ 32 50000#32))) s)))

/-- Each node's number of incoming edges (ones added into the destination entries, from zero), clamped below by one. -/
def degOf (d : IVec S600000 32) : FVec Ideal S50000 .f32 :=
  maximumf
    (Host.scatterAdd scatter_S50000_S600000x1_S600000_n_0_0_1
      (broadcastInDim S50000 ![] bcast_S_S50000 (constant (F := Ideal) S_ .f32 0x00000000#32))
      (broadcastInDim S600000x1 ![0] bcast_S600000_S600000x1_0 d)
      (broadcastInDim S600000 ![] bcast_S_S600000 (constant (F := Ideal) S_ .f32 0x3F800000#32)))
    (broadcastInDim S50000 ![] bcast_S_S50000 (constant (F := Ideal) S_ .f32 0x3F800000#32))

/-- The reciprocal of the clamped degree, as a column. -/
def invOf (d : IVec S600000 32) : FVec Ideal S50000x1 .f32 :=
  shapeCast S50000x1
    (Host.divf (broadcastInDim S50000 ![] bcast_S_S50000 (constant (F := Ideal) S_ .f32 0x3F800000#32)) (degOf d))
    shapeCasts_S50000_S50000x1

/-- A bias vector as a one-row matrix. -/
def row128 (b : FVec Ideal S128 .f32) : FVec Ideal S1x128 .f32 := shapeCast S1x128 b shapeCasts_S128_S1x128
def row64 (b : FVec Ideal S64 .f32) : FVec Ideal S1x64 .f32 := shapeCast S1x64 b shapeCasts_S64_S1x64

/-- The first layer's output as a function of the arguments. -/
def hidden (x : FVec Ideal S50000x128 .f32) (ei : IVec S2x600000 32) (w1l : FVec Ideal S128x128 .f32) (b1 : FVec Ideal S128 .f32)
    (w1r : FVec Ideal S128x128 .f32) : FVec Ideal S50000x128 .f32 :=
  Layer0.layer (aggOf x (src ei) (dst ei)) (invOf (dst ei)) x w1l (row128 b1) w1r

/-- The program's result as a function of the arguments: the second layer of the first. -/
def out (x : FVec Ideal S50000x128 .f32) (ei : IVec S2x600000 32) (w1l : FVec Ideal S128x128 .f32) (b1 : FVec Ideal S128 .f32)
    (w1r : FVec Ideal S128x128 .f32) (w2l : FVec Ideal S128x64 .f32) (b2 : FVec Ideal S64 .f32) (w2r : FVec Ideal S128x64 .f32) :
    FVec Ideal S50000x64 .f32 :=
  Layer1.layer (aggOf (hidden x ei w1l b1 w1r) (src ei) (dst ei)) (invOf (dst ei)) (hidden x ei w1l b1 w1r) w2l (row64 b2) w2r

variable (m : (ℓ : Loc nD τ sig) → Buf (Elt Ideal) ℓ) (ρ : Dev nD → PrngReg)

/-! ## The first region's inputs: the buffers after the first host stretch -/

set_option maxHeartbeats 4000000 in
theorem W1_src (c : Dev nD) : W1 m ρ c (Proc.devRef .tc main_v1) = src (m ((c : Thread nD τ).loc main_arg1)) := by
  show StableHlo.after hostOps0 (W0 m ρ c) (Proc.devRef .tc main_v1) = _
  after_results_simp <;> rfl

set_option maxHeartbeats 4000000 in
theorem W1_dst (c : Dev nD) : W1 m ρ c (Proc.devRef .tc main_v3) = dst (m ((c : Thread nD τ).loc main_arg1)) := by
  show StableHlo.after hostOps0 (W0 m ρ c) (Proc.devRef .tc main_v3) = _
  after_results_simp <;> rfl

set_option maxHeartbeats 4000000 in
theorem W1_agg (c : Dev nD) : W1 m ρ c (Proc.devRef .tc main_v22)
    = aggOf (m ((c : Thread nD τ).loc main_arg0)) (src (m ((c : Thread nD τ).loc main_arg1))) (dst (m ((c : Thread nD τ).loc main_arg1))) := by
  show StableHlo.after hostOps0 (W0 m ρ c) (Proc.devRef .tc main_v22) = _
  after_results_simp <;> rfl

set_option maxHeartbeats 4000000 in
theorem W1_inv (c : Dev nD) : W1 m ρ c (Proc.devRef .tc main_v12) = invOf (dst (m ((c : Thread nD τ).loc main_arg1))) := by
  show StableHlo.after hostOps0 (W0 m ρ c) (Proc.devRef .tc main_v12) = _
  after_results_simp <;> rfl

set_option maxHeartbeats 4000000 in
theorem W1_b (c : Dev nD) : W1 m ρ c (Proc.devRef .tc main_v23) = row128 (m ((c : Thread nD τ).loc main_arg3)) := by
  show StableHlo.after hostOps0 (W0 m ρ c) (Proc.devRef .tc main_v23) = _
  after_results_simp <;> rfl

set_option maxHeartbeats 4000000 in
theorem W1_arg (c : Dev nD) :
    W1 m ρ c (Proc.devRef .tc main_arg0) = m ((c : Thread nD τ).loc main_arg0)
    ∧ W1 m ρ c (Proc.devRef .tc main_arg2) = m ((c : Thread nD τ).loc main_arg2)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7) := by
  refine ⟨?_, ?_, ?_, ?_, ?_, ?_⟩
  · show StableHlo.after hostOps0 (W0 m ρ c) (Proc.devRef .tc main_arg0) = _
    after_results_simp <;> rfl
  · show StableHlo.after hostOps0 (W0 m ρ c) (Proc.devRef .tc main_arg2) = _
    after_results_simp <;> rfl
  · show StableHlo.after hostOps0 (W0 m ρ c) (Proc.devRef .tc main_arg4) = _
    after_results_simp <;> rfl
  · show StableHlo.after hostOps0 (W0 m ρ c) (Proc.devRef .tc main_arg5) = _
    after_results_simp <;> rfl
  · show StableHlo.after hostOps0 (W0 m ρ c) (Proc.devRef .tc main_arg6) = _
    after_results_simp <;> rfl
  · show StableHlo.after hostOps0 (W0 m ρ c) (Proc.devRef .tc main_arg7) = _
    after_results_simp <;> rfl

/-! ## After the first region -/

/-- The first region's output array holds the first layer of the arguments. -/
theorem W2_hidden (c : Dev nD) : W2 m ρ c (Proc.devRef .tc main_v24)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 6).trans ?_
  rw [Layer0.final (V1 m ρ) c]
  show Layer0.layer (W1 m ρ c (Proc.devRef .tc main_v22)) (W1 m ρ c (Proc.devRef .tc main_v12)) (W1 m ρ c (Proc.devRef .tc main_arg0))
    (W1 m ρ c (Proc.devRef .tc main_arg2)) (W1 m ρ c (Proc.devRef .tc main_v23)) (W1 m ρ c (Proc.devRef .tc main_arg4)) = _
  rw [W1_agg, W1_inv, W1_b, (W1_arg m ρ c).1, (W1_arg m ρ c).2.1, (W1_arg m ρ c).2.2.1]
  rfl

/-- A buffer that is none of the first region's arrays is as the first host stretch left it. -/
theorem W2_src (c : Dev nD) : W2 m ρ c (Proc.devRef .tc main_v1) = src (m ((c : Thread nD τ).loc main_arg1)) :=
  (W2_of_ne m ρ c main_v1 (by decide)).trans (W1_src m ρ c)
theorem W2_dst (c : Dev nD) : W2 m ρ c (Proc.devRef .tc main_v3) = dst (m ((c : Thread nD τ).loc main_arg1)) :=
  (W2_of_ne m ρ c main_v3 (by decide)).trans (W1_dst m ρ c)
theorem W2_arg5 (c : Dev nD) : W2 m ρ c (Proc.devRef .tc main_arg5) = m ((c : Thread nD τ).loc main_arg5) :=
  (W2_of_ne m ρ c main_arg5 (by decide)).trans (W1_arg m ρ c).2.2.2.1
theorem W2_arg6 (c : Dev nD) : W2 m ρ c (Proc.devRef .tc main_arg6) = m ((c : Thread nD τ).loc main_arg6) :=
  (W2_of_ne m ρ c main_arg6 (by decide)).trans (W1_arg m ρ c).2.2.2.2.1
theorem W2_arg7 (c : Dev nD) : W2 m ρ c (Proc.devRef .tc main_arg7) = m ((c : Thread nD τ).loc main_arg7) :=
  (W2_of_ne m ρ c main_arg7 (by decide)).trans (W1_arg m ρ c).2.2.2.2.2
/-- The reciprocal column is an input of the first region: the region leaves it as it found it. -/
theorem W2_inv (c : Dev nD) : W2 m ρ c (Proc.devRef .tc main_v12) = invOf (dst (m ((c : Thread nD τ).loc main_arg1))) :=
  ((W2_arr m ρ c 1).trans (((dat0 (V1 m ρ) c).arrAt_in 1 rfl _).trans (A_eq0 (V1 m ρ) c 1))).trans (W1_inv m ρ c)

/-! ## The second region's inputs: the buffers after the second host stretch -/

set_option maxHeartbeats 4000000 in
theorem W3_agg (c : Dev nD) : W3 m ρ c (Proc.devRef .tc main_v34)
    = aggOf (W2 m ρ c (Proc.devRef .tc main_v24)) (W2 m ρ c (Proc.devRef .tc main_v1)) (W2 m ρ c (Proc.devRef .tc main_v3)) := by
  show StableHlo.after hostOps1 (W2 m ρ c) (Proc.devRef .tc main_v34) = _
  after_results_simp <;> rfl

set_option maxHeartbeats 4000000 in
theorem W3_b (c : Dev nD) : W3 m ρ c (Proc.devRef .tc main_v35) = row64 (W2 m ρ c (Proc.devRef .tc main_arg6)) := by
  show StableHlo.after hostOps1 (W2 m ρ c) (Proc.devRef .tc main_v35) = _
  after_results_simp <;> rfl

set_option maxHeartbeats 4000000 in
theorem W3_keep (c : Dev nD) :
    W3 m ρ c (Proc.devRef .tc main_v12) = W2 m ρ c (Proc.devRef .tc main_v12)
    ∧ W3 m ρ c (Proc.devRef .tc main_v24) = W2 m ρ c (Proc.devRef .tc main_v24)
    ∧ W3 m ρ c (Proc.devRef .tc main_arg5) = W2 m ρ c (Proc.devRef .tc main_arg5)
    ∧ W3 m ρ c (Proc.devRef .tc main_arg7) = W2 m ρ c (Proc.devRef .tc main_arg7) := by
  refine ⟨?_, ?_, ?_, ?_⟩
  · show StableHlo.after hostOps1 (W2 m ρ c) (Proc.devRef .tc main_v12) = _
    after_results_simp <;> rfl
  · show StableHlo.after hostOps1 (W2 m ρ c) (Proc.devRef .tc main_v24) = _
    after_results_simp <;> rfl
  · show StableHlo.after hostOps1 (W2 m ρ c) (Proc.devRef .tc main_arg5) = _
    after_results_simp <;> rfl
  · show StableHlo.after hostOps1 (W2 m ρ c) (Proc.devRef .tc main_arg7) = _
    after_results_simp <;> rfl

/-! ## The result -/

/-- The result array after the run is `out` of the eight arguments. -/
theorem result (c : Dev nD) : W4 m ρ c (Proc.devRef .tc main_v36)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 6).trans ?_
  rw [Layer1.final (V3 m ρ) c]
  show Layer1.layer (W3 m ρ c (Proc.devRef .tc main_v34)) (W3 m ρ c (Proc.devRef .tc main_v12)) (W3 m ρ c (Proc.devRef .tc main_v24))
    (W3 m ρ c (Proc.devRef .tc main_arg5)) (W3 m ρ c (Proc.devRef .tc main_v35)) (W3 m ρ c (Proc.devRef .tc main_arg7)) = _
  rw [W3_agg, W3_b, (W3_keep m ρ c).1, (W3_keep m ρ c).2.1, (W3_keep m ρ c).2.2.1, (W3_keep m ρ c).2.2.2,
    W2_hidden, W2_src, W2_dst, W2_inv, W2_arg5, W2_arg6, W2_arg7]
  rfl

end Cert.KernelIdeal.Chase

end
-- ==== Proof.Bridge.lean ====
import proofs.«105003_j42812234006861_1_alg».proof.Proof.Gen.ReferenceIdeal.Read
import proofs.«105003_j42812234006861_1_alg».proof.Proof.HostChase
import proofs.«105003_j42812234006861_1_alg».proof.Proof.LibSageLayer
import proofs.«105003_j42812234006861_1_alg».proof.Proof.LibKeepdims
import Idealize.ShloMosaic.Lib.ValueLayout

/-!
# The kernel program's result is the reference's

Both programs compute the neighbour sums, the clamped degrees and the gathers with the same host operations, so those
are carried as the same functions on both sides. What differs is the layer: the reference divides the neighbour sum by
the clamped degree, multiplies by the neighbour weights, adds the bias and then the node's own row times the root
weights; the kernel scales by the reciprocal degree and adds the bias last. The clamped degree is at least one, hence
not zero, and over the extended reals scaling by the reciprocal of a non-zero number is dividing by it; the summands
only change places. So the two agree at every node and feature, first for the rectified hidden layer and then, with
equal hidden layers going in, for the output layer.
-/

set_option maxRecDepth 16384

noncomputable section

namespace Cert.Bridge

open Cert.ReferenceIdeal Cert.ReferenceIdeal.Gen Cert.ReferenceIdeal.Read
open Idealize.ShloMosaic Idealize.ShloMosaic.TcCoe Idealize.ShloMosaic.ValueIdx Idealize.ShloMosaic.SageLayer
open Cert.KernelIdeal.Chase (src dst aggOf degOf invOf row128 row64 hidden out)

abbrev XN := (⟨S50000x128, .f32⟩ : BufTy).Contents (Elt Ideal)
abbrev EI := (⟨S2x600000, .i32⟩ : BufTy).Contents (Elt Ideal)
abbrev W1 := (⟨S128x128, .f32⟩ : BufTy).Contents (Elt Ideal)
abbrev B1 := (⟨S128, .f32⟩ : BufTy).Contents (Elt Ideal)
abbrev W2 := (⟨S128x64, .f32⟩ : BufTy).Contents (Elt Ideal)
abbrev B2 := (⟨S64, .f32⟩ : BufTy).Contents (Elt Ideal)

/-! ## The shared host chains are the same functions in both programs -/

theorem agg1_eq (x : XN) (ei : EI) : val_main_v13 (F := Ideal) x ei = aggOf x (src ei) (dst ei) := rfl

theorem deg1_eq (ei : EI) : val_main_v19 (F := Ideal) ei = degOf (dst ei) := rfl

theorem deg2_eq (ei : EI) : val_main_v45 (F := Ideal) ei = degOf (dst ei) := rfl

theorem agg2_eq (x : XN) (ei : EI) (w1l : W1) (b1 : B1) (w1r : W1) :
    val_main_v39 (F := Ideal) x ei w1l b1 w1r = aggOf (val_main_v29 (F := Ideal) x ei w1l b1 w1r) (src ei) (dst ei) := rfl

/-! ## The column and the bias row at an entry -/

/-- The clamped degree is not zero. -/
theorem deg_ne_zero (d : IVec Cert.KernelIdeal.S600000 32) (p : Fin 50000) : degOf d (ix1 p) ≠ 0 := by
  unfold degOf
  exact maximumf_ne_zero_of_one _ _ _ ofBits_one_f32

/-- The reciprocal column at node `p` is one over the clamped degree of `p`. -/
theorem inv_apply (d : IVec Cert.KernelIdeal.S600000 32) (p : Fin 50000) :
    invOf d (ix2 p (0 : Fin 1)) = Ideal.div 1 (degOf d (ix1 p)) := by
  unfold invOf
  rw [Keepdims.shapeCast_a_a1_apply]
  exact hostDivf_one_apply _ _ _ ofBits_one_f32

theorem row128_apply (b : B1) (q : Fin 128) : row128 b (ix2 (0 : Fin 1) q) = b (ix1 q) := by
  unfold row128
  exact shapeCast_a_1a_apply _ _ _ _

theorem row64_apply (b : B2) (q : Fin 64) : row64 b (ix2 (0 : Fin 1) q) = b (ix1 q) := by
  unfold row64
  exact shapeCast_a_1a_apply _ _ _ _

/-! ## The reference's composed indices, by coordinates -/

theorem l23 (p : Fin 50000) (q k : Fin 128) : lidx_main_v23 (ix2 p q) k = ix2 p k :=
  funext fun a => Fin.ext (by match a with | ⟨0, _⟩ => rfl | ⟨1, _⟩ => rfl)
theorem r23 (p : Fin 50000) (q k : Fin 128) : ridx_main_v23 (ix2 p q) k = ix2 k q :=
  funext fun a => Fin.ext (by match a with | ⟨0, _⟩ => rfl | ⟨1, _⟩ => rfl)
theorem l27 (p : Fin 50000) (q k : Fin 128) : lidx_main_v27 (ix2 p q) k = ix2 p k :=
  funext fun a => Fin.ext (by match a with | ⟨0, _⟩ => rfl | ⟨1, _⟩ => rfl)
theorem r27 (p : Fin 50000) (q k : Fin 128) : ridx_main_v27 (ix2 p q) k = ix2 k q :=
  funext fun a => Fin.ext (by match a with | ⟨0, _⟩ => rfl | ⟨1, _⟩ => rfl)
theorem d21 (p : Fin 50000) (k : Fin 128) : idx_main_v20 (idx_main_v21 (ix2 p k)) = ix1 p :=
  funext fun a => Fin.ext (by match a with | ⟨0, _⟩ => rfl)
theorem b25 (p : Fin 50000) (q : Fin 128) : idx_main_v24 (idx_main_v25 (ix2 p q)) = ix1 q :=
  funext fun a => Fin.ext (by match a with | ⟨0, _⟩ => rfl)

theorem l49 (p : Fin 50000) (q : Fin 64) (k : Fin 128) : lidx_main_v49 (ix2 p q) k = ix2 p k :=
  funext fun a => Fin.ext (by match a with | ⟨0, _⟩ => rfl | ⟨1, _⟩ => rfl)
theorem r49 (p : Fin 50000) (q : Fin 64) (k : Fin 128) : ridx_main_v49 (ix2 p q) k = ix2 k q :=
  funext fun a => Fin.ext (by match a with | ⟨0, _⟩ => rfl | ⟨1, _⟩ => rfl)
theorem l53 (p : Fin 50000) (q : Fin 64) (k : Fin 128) : lidx_main_v53 (ix2 p q) k = ix2 p k :=
  funext fun a => Fin.ext (by match a with | ⟨0, _⟩ => rfl | ⟨1, _⟩ => rfl)
theorem r53 (p : Fin 50000) (q : Fin 64) (k : Fin 128) : ridx_main_v53 (ix2 p q) k = ix2 k q :=
  funext fun a => Fin.ext (by match a with | ⟨0, _⟩ => rfl | ⟨1, _⟩ => rfl)
theorem d47 (p : Fin 50000) (k : Fin 128) : idx_main_v46 (idx_main_v47 (ix2 p k)) = ix1 p :=
  funext fun a => Fin.ext (by match a with | ⟨0, _⟩ => rfl)
theorem b51 (p : Fin 50000) (q : Fin 64) : idx_main_v50 (idx_main_v51 (ix2 p q)) = ix1 q :=
  funext fun a => Fin.ext (by match a with | ⟨0, _⟩ => rfl)

/-! ## The hidden layer -/

/-- The reference's hidden layer at node `p`, feature `q`: the rectified textbook entry. -/
theorem ref_hidden_apply (x : XN) (ei : EI) (w1l : W1) (b1 : B1) (w1r : W1) (p : Fin 50000) (q : Fin 128) :
    val_main_v29 (F := Ideal) x ei w1l b1 w1r (ix2 p q)
      = max (meanAt (aggOf x (src ei) (dst ei)) (degOf (dst ei)) x w1l b1 w1r p q) 0 := by
  rw [val_main_v29_apply, val_main_v28_apply, val_main_v26_apply, val_main_v23_apply, val_main_v27_apply,
    val_main_v25_apply, val_main_v24_apply, val_main_call0_v0_apply, val_main_call0_cst_apply]
  simp only [val_main_v22_apply, val_main_v21_apply, val_main_v20_apply, l23, r23, l27, r27, d21, b25, agg1_eq, deg1_eq]
  show max _ (Ideal.ofBits .f32 0x00000000#32) = _
  rw [Ideal.ofBits_zero_f32]
  rfl

/-- The kernel program's hidden layer is the reference's. -/
theorem hidden_eq (x : XN) (ei : EI) (w1l : W1) (b1 : B1) (w1r : W1) :
    hidden x ei w1l b1 w1r = val_main_v29 (F := Ideal) x ei w1l b1 w1r := by
  funext j
  obtain ⟨p, q, rfl⟩ : ∃ (p : Fin 50000) (q : Fin 128), j = ix2 p q := ⟨j 0, j 1, eq_ix2 j⟩
  rw [ref_hidden_apply]
  show max (scaledAt (aggOf x (src ei) (dst ei)) (invOf (dst ei)) x w1l (row128 b1) w1r p q) 0 = _
  rw [scaledAt_eq_meanAt _ _ (degOf (dst ei)) _ _ _ b1 _ p q (inv_apply _ p) (deg_ne_zero _ p) (row128_apply b1 q)]

/-! ## The output layer -/

/-- The reference's output at node `p`, feature `q`: the textbook entry over its hidden layer. -/
theorem ref_out_apply (x : XN) (ei : EI) (w1l : W1) (b1 : B1) (w1r : W1) (w2l : W2) (b2 : B2) (w2r : W2)
    (p : Fin 50000) (q : Fin 64) :
    val_main_v54 (F := Ideal) x ei w1l b1 w1r w2l b2 w2r (ix2 p q)
      = meanAt (aggOf (val_main_v29 (F := Ideal) x ei w1l b1 w1r) (src ei) (dst ei)) (degOf (dst ei))
          (val_main_v29 (F := Ideal) x ei w1l b1 w1r) w2l b2 w2r p q := by
  rw [val_main_v54_apply, val_main_v52_apply, val_main_v49_apply, val_main_v53_apply, val_main_v51_apply, val_main_v50_apply]
  simp only [val_main_v48_apply, val_main_v47_apply, val_main_v46_apply, l49, r49, l53, r53, d47, b51, agg2_eq, deg2_eq]
  rfl

/-- The kernel program's result function is the reference's last stage. -/
theorem out_eq (x : XN) (ei : EI) (w1l : W1) (b1 : B1) (w1r : W1) (w2l : W2) (b2 : B2) (w2r : W2) :
    out x ei w1l b1 w1r w2l b2 w2r = val_main_v54 (F := Ideal) x ei w1l b1 w1r w2l b2 w2r := by
  funext j
  obtain ⟨p, q, rfl⟩ : ∃ (p : Fin 50000) (q : Fin 64), j = ix2 p q := ⟨j 0, j 1, eq_ix2 j⟩
  rw [ref_out_apply]
  show scaledAt (aggOf (hidden x ei w1l b1 w1r) (src ei) (dst ei)) (invOf (dst ei)) (hidden x ei w1l b1 w1r) w2l (row64 b2) w2r p q = _
  rw [hidden_eq, scaledAt_eq_meanAt _ _ (degOf (dst ei)) _ _ _ b2 _ p q (inv_apply _ p) (deg_ne_zero _ p) (row64_apply b2 q)]

end Cert.Bridge

end
-- ==== Proof.lean ====
/- Two layers of a mean-aggregating graph network on 50000 nodes and 600000 edges, as a Pallas program and as plain jnp.

   Both programs build, on the host and with the same operations, each node's neighbour sum (source rows gathered and added
   into destination rows) and its number of incoming edges clamped below by one. A layer sends node `r` to
   `(A r / d r) · Wₗ + b + X r · Wᵣ`; the kernel program computes it in a region tiled into 25 blocks of 2000 nodes, with
   the reciprocal `1 / d r` taken once on the host and the bias added last. The first layer is rectified and feeds the
   second, whose neighbour sum is taken between the two regions.

   The frames of the two kernel programs are the generated ones; the reference's is its generated run. For the value
   claim the kernel program's run is stated once more with the result array named; each region's output array is read as
   one function of its six input arrays; those arrays are read back through the host stretches to the arguments; and the
   resulting function is shown equal to the reference's last stage, entry by entry: over the extended reals, scaling by
   the reciprocal of a degree that is at least one is dividing by it, and the three summands only change places. No
   finiteness of the inputs is used. -/
import proofs.«105003_j42812234006861_1_alg».proof.Defs
import proofs.«105003_j42812234006861_1_alg».proof.Proof.Gen.Kernel
import proofs.«105003_j42812234006861_1_alg».proof.Proof.Gen.Kernel.Skeleton
import proofs.«105003_j42812234006861_1_alg».proof.Proof.Gen.Kernel.Launch
import proofs.«105003_j42812234006861_1_alg».proof.Proof.Gen.Kernel.Points
import proofs.«105003_j42812234006861_1_alg».proof.Proof.Gen.Kernel.Frame
import proofs.«105003_j42812234006861_1_alg».proof.Proof.Gen.KernelIdeal
import proofs.«105003_j42812234006861_1_alg».proof.Proof.Gen.KernelIdeal.Skeleton
import proofs.«105003_j42812234006861_1_alg».proof.Proof.Gen.KernelIdeal.Launch
import proofs.«105003_j42812234006861_1_alg».proof.Proof.Gen.KernelIdeal.Points
import proofs.«105003_j42812234006861_1_alg».proof.Proof.Gen.KernelIdeal.Frame
import proofs.«105003_j42812234006861_1_alg».proof.Proof.Gen.ReferenceIdeal
import proofs.«105003_j42812234006861_1_alg».proof.Proof.Gen.Pre_finite_inputs
import proofs.«105003_j42812234006861_1_alg».proof.Proof.Gen.ReferenceIdeal.Run
import proofs.«105003_j42812234006861_1_alg».proof.Proof.Gen.ReferenceIdeal.Read
import proofs.«105003_j42812234006861_1_alg».proof.Proof.KernelRun
import proofs.«105003_j42812234006861_1_alg».proof.Proof.HostChase
import proofs.«105003_j42812234006861_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the arguments, the kernel program's result array and the
    reference's are the same function of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v36),
    Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  show Cert.ReferenceIdeal.Value.res_main_v54 m' c
    = Cert.KernelIdeal.Gen.W4 m ρ c (Proc.devRef .tc Cert.KernelIdeal.main_v36)
  rw [Cert.ReferenceIdeal.Read.val_main_v54_eq, Cert.KernelIdeal.Chase.result m ρ c, Cert.Bridge.out_eq,
    h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
